-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x64 : Shape := ⟨2, ![2048, 64]⟩
abbrev S64x2048 : Shape := ⟨2, ![64, 2048]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S64x2048 : S_.BroadcastsInDim S64x2048 (![] : Fin 0 → Fin S64x2048.rank)
  reducesTo_S64x2048_S_d0_1 : S64x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S2048x512 .f32) (main_arg8 : FVec F S512 .f32) (main_arg9 : FVec F S512x1 .f32) (main_arg10 : FVec F S1 .f32) (main_v33 : IVec S_ 1) : IVec S_ 1 :=
  let main_v34 : FVec F S2048x512 .f32 := Host.absf main_arg7
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1 .f32 := Host.absf main_arg9
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S2048x64 .f32) (main_arg5 : FVec F S2048x64 .f32) (main_arg6 : FVec F S64x2048 .f32) (main_arg7 : FVec F S2048x512 .f32) (main_arg8 : FVec F S512 .f32) (main_arg9 : FVec F S512x1 .f32) (main_arg10 : FVec F S1 .f32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S2048x64 .f32 := Host.absf main_arg4
  let main_cst_6 : FVec F S_ .f32 := constant S_ .f32 0x7F800000#32
  let main_v20 : FVec F S2048x64 .f32 := broadcastInDim S2048x64 ![] bcast_S_S2048x64 main_cst_6
  let main_v21 : IVec S2048x64 1 := cmpf .olt main_v19 main_v20
  let main_c_7 : IVec S_ 1 := constantI S_ 1 1#1
  let main_v22 : IVec S_ 1 := (fun x v => Host.reduce IntOp.andi x v reducesTo_S2048x64_S_d0_1 h_S_) main_v21 main_c_7
  let main_v23 : IVec S_ 1 := andi main_v18 main_v22
  let main_v24 : FVec F S2048x64 .f32 := Host.absf main_arg5
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S64x2048 .f32 := Host.absf main_arg6
  let main_cst_10 : FVec F S_ .f32 := constant S_ .f32 0x7F800000#32
  let main_v30 : FVec F S64x2048 .f32 := broadcastInDim S64x2048 ![] bcast_S_S64x2048 main_cst_10
  let main_v31 : IVec S64x2048 1 := cmpf .olt main_v29 main_v30
  let main_c_11 : IVec S_ 1 := constantI S_ 1 1#1
  let main_v32 : IVec S_ 1 := (fun x v => Host.reduce IntOp.andi x v reducesTo_S64x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S8192x2048 .f32) (main_arg3 : FVec F S2048x64 .f32) (main_arg4 : FVec F S2048x64 .f32) (main_arg5 : FVec F S2048x64 .f32) (main_arg6 : FVec F S64x2048 .f32) (main_arg7 : FVec F S2048x512 .f32) (main_arg8 : FVec F S512 .f32) (main_arg9 : FVec F S512x1 .f32) (main_arg10 : FVec F S1 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x64 : Shape := ⟨2, ![2048, 64]⟩
abbrev S64x2048 : Shape := ⟨2, ![64, 2048]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S256x2048 : Shape := ⟨2, ![256, 2048]⟩
abbrev S256x512 : Shape := ⟨2, ![256, 512]⟩
abbrev S256x1 : Shape := ⟨2, ![256, 1]⟩
abbrev S256x64 : Shape := ⟨2, ![256, 64]⟩

abbrev nBuf : Space → Nat
  | .hbm => 15
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S64x2048, .f32⟩
  | .hbm, ⟨7, _⟩ => ⟨S2048x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S1x512, .f32⟩
  | .hbm, ⟨12, _⟩ => ⟨S1x1, .f32⟩
  | .hbm, ⟨13, _⟩ => ⟨S8192x2048, .f32⟩
  | .hbm, ⟨14, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S64x2048, .f32⟩
  | .local _ .vmem, ⟨10, _⟩ => ⟨S2048x512, .f32⟩
  | .local _ .vmem, ⟨11, _⟩ => ⟨S1x512, .f32⟩
  | .local _ .vmem, ⟨12, _⟩ => ⟨S512x1, .f32⟩
  | .local _ .vmem, ⟨13, _⟩ => ⟨S1x1, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S512_S1x512 : S512.ShapeCasts S1x512
  shapeCasts_S1_S1x1 : S1.ShapeCasts S1x1
  inb_S256x2048_S256x2048_0_0 : ∀ a, (![0, 0] : Fin 2 → Nat) a + S256x2048.size a ≤ S256x2048.size a
  h_S256x2048 : 0 < S256x2048.numel
  inb_S2048x64_S2048x64_0_0 : ∀ a, (![0, 0] : Fin 2 → Nat) a + S2048x64.size a ≤ S2048x64.size a
  h_S2048x64 : 0 < S2048x64.numel
  inb_S64x2048_S64x2048_0_0 : ∀ a, (![0, 0] : Fin 2 → Nat) a + S64x2048.size a ≤ S64x2048.size a
  h_S64x2048 : 0 < S64x2048.numel
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bitsLt_bf16_f32 : FTy.bits .bf16 < FTy.bits .f32
  broadcasts_S1x512_S256x512 : S1x512.Broadcasts S256x512
  broadcasts_S1x1_S256x1 : S1x1.Broadcasts S256x1
  broadcasts_S256x1_S256x2048 : S256x1.Broadcasts S256x2048
  dot_S256x2048_S2048x512_S256x512_1_0_0_1_n_n_wf : DotDims.WF S256x2048 S2048x512 S256x512 [1] [0] [0] [1] [] []
  dot_S256x512_S512x1_S256x1_1_0_0_1_n_n_wf : DotDims.WF S256x512 S512x1 S256x1 [1] [0] [0] [1] [] []
  dot_S256x2048_S2048x64_S256x64_1_0_0_1_n_n_wf : DotDims.WF S256x2048 S2048x64 S256x64 [1] [0] [0] [1] [] []
  dot_S256x64_S64x2048_S256x2048_1_0_0_1_n_n_wf : DotDims.WF S256x64 S64x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S2048x64.size a
  hwx0_4 : ∀ i : grid0.Coords, EltTy.bits .f32 = 32 ∨ (Rect.block (s := S2048x64) S2048x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S2048x64.size a
  hwx0_5 : ∀ i : grid0.Coords, EltTy.bits .f32 = 32 ∨ (Rect.block (s := S2048x64) S2048x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x2048.size a ≤ S64x2048.size a
  hwx0_6 : ∀ i : grid0.Coords, EltTy.bits .f32 = 32 ∨ (Rect.block (s := S64x2048) S64x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x512.size a
  hwx0_7 : ∀ i : grid0.Coords, EltTy.bits .f32 = 32 ∨ (Rect.block (s := S2048x512) S2048x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S8192x2048.size a
  hwx0_11 : ∀ i : grid0.Coords, EltTy.bits .f32 = 32 ∨ (Rect.block (s := S8192x2048) S256x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S8192x2048.size a
  hwx0_12 : ∀ i : grid0.Coords, EltTy.bits .f32 = 32 ∨ (Rect.block (s := S8192x2048) S256x2048.size (cc0_transform_12 i) (hinb0_12 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2_0) S256x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_1) S256x2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x64 : Shape := ⟨2, ![2048, 64]⟩
abbrev S64x2048 : Shape := ⟨2, ![64, 2048]⟩
abbrev S2048x512 : Shape := ⟨2, ![2048, 512]⟩
abbrev S512 : Shape := ⟨1, ![512]⟩
abbrev S512x1 : Shape := ⟨2, ![512, 1]⟩
abbrev S1 : Shape := ⟨1, ![1]⟩
abbrev S8192x512 : Shape := ⟨2, ![8192, 512]⟩
abbrev S1x512 : Shape := ⟨2, ![1, 512]⟩
abbrev S8192x1 : Shape := ⟨2, ![8192, 1]⟩
abbrev S1x1 : Shape := ⟨2, ![1, 1]⟩
abbrev S_ : Shape := ⟨0, ![]⟩
abbrev S8192x64 : Shape := ⟨2, ![8192, 64]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x64, .f32⟩
  | .hbm, ⟨4, _⟩ => ⟨S2048x64, .f32⟩
  | .hbm, ⟨5, _⟩ => ⟨S2048x64, .f32⟩
  | .hbm, ⟨6, _⟩ => ⟨S64x2048, .f32⟩
  | .hbm, ⟨7, _⟩ => ⟨S2048x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S8192x512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x1, .f32⟩
  | .hbm, ⟨17, _⟩ => ⟨S1x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x64, .f32⟩
  | .hbm, ⟨46, _⟩ => ⟨S8192x64, .f32⟩
  | .hbm, ⟨47, _⟩ => ⟨S8192x64, .f32⟩
  | .hbm, ⟨48, _⟩ => ⟨S8192x64, .f32⟩
  | .hbm, ⟨49, _⟩ => ⟨S8192x64, .f32⟩
  | .hbm, ⟨50, _⟩ => ⟨S8192x64, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  dot_S8192x2048_S2048x512_S8192x512_1_0_0_1_n_n_wf : DotDims.WF S8192x2048 S2048x512 S8192x512 [1] [0] [0] [1] [] []
  dot_S8192x512_S512x1_S8192x1_1_0_0_1_n_n_wf : DotDims.WF S8192x512 S512x1 S8192x1 [1] [0] [0] [1] [] []
  dot_S8192x2048_S2048x64_S8192x64_1_0_0_1_n_n_wf : DotDims.WF S8192x2048 S2048x64 S8192x64 [1] [0] [0] [1] [] []
  dot_S8192x64_S64x2048_S8192x2048_1_0_0_1_n_n_wf : DotDims.WF S8192x64 S64x2048 S8192x2048 [1] [0] [0] [1] [] []

variable [Facts₀]

def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf
def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf
def dot_S8192x64_S64x2048_S8192x2048_1_0_0_1_n_n : DotDims S8192x64 S64x2048 S8192x2048 where
  lhsContracting := [1]
  rhsContracting := [0]
  lhsNonContracting := [0]
  rhsNonContracting := [1]
  lhsBatch := []
  rhsBatch := []
  wf := dot_S8192x64_S64x2048_S8192x2048_1_0_0_1_n_n_wf

class Facts : Prop extends Facts₀ where

variable [Facts]
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.Spec.lean ====
/-
  The specification: one Heun step of the gated geodesic flow, row by row, on the extended reals.

  Every sample (a row of the batch) is advanced on its own. With the row's position x, velocity v and force f,
  and the layer's weights:
    * the step size is  dt = 0.1 · σ( tanh(x·gw1 + gb1)·gw2 + gb2 ),  σ the logistic function;
    * the curvature term is  Γ(x, v)_j = Σ_q ( tanh((x·Wx)_q) · (v·U)_q · (v·V)_q ) · Wo_{q j};
    * the acceleration is  a(x, v) = f − Γ(x, v);
    * the Euler predictor is  x_e = x + dt·v,  v_e = v + dt·a(x, v);
    * the corrected step is  x' = x + (½·dt)·(v + v_e),  v' = v + (½·dt)·(a(x, v) + a(x_e, v_e)).
  Each product x·W is a sum over the 2048 (or 512, or 64) coordinates; nothing mixes two rows, which is why a
  block of rows can be advanced without the others. No algebraic law is used beyond reading each operation at
  an entry, so no finiteness of the inputs is needed.

  Also here: the two facts about single operations that both programs' readings share — a product of an
  [M, K] by a [K, N] matrix into a zero accumulator at an entry, whatever float formats its operands carry, and a
  [1, N] row repeated down M rows — and the f32 word of 1.0.
-/
import Idealize.ShloMosaic.PureOps.Ideal.Laws
import Idealize.ShloMosaic.Lib.ValueIdx
import Idealize.ShloMosaic.Lib.Pipeline.Value
import proofs.«160074_j60816736912088_1_alg».proof.Proof.LibDense

noncomputable section

open scoped BigOperators

namespace Cert.Heun

open Idealize.ShloMosaic Idealize.ShloMosaic.ValueIdx

/-- An [a, b] array of extended reals. -/
abbrev Mat (a b : ℕ) : Type := (⟨2, ![a, b]⟩ : Shape).Idx → EReal
/-- One sample: a row of 2048 coordinates. -/
abbrev Row : Type := Fin 2048 → EReal

/-- Row i of an array with 2048 columns. -/
def row {n : ℕ} (A : Mat n 2048) (i : Fin n) : Row := fun k => A (ix2 i k)

/-- The layer's weights: the three rank-64 factors and the output factor of the curvature term, and the gate's two
    affine maps (the first bias as a function of the hidden unit, the second a single number). -/
structure Wts where
  U : Mat 2048 64
  V : Mat 2048 64
  Wx : Mat 2048 64
  Wo : Mat 64 2048
  gw1 : Mat 2048 512
  gb1 : Fin 512 → EReal
  gw2 : Mat 512 1
  gb2 : EReal

/-- The f32 word of 0.1, the base step. -/
abbrev tenth : EReal := Ideal.ofBits .f32 0x3DCCCCCD#32
/-- The f32 word of 0.5. -/
abbrev half : EReal := Ideal.ofBits .f32 0x3F000000#32

/-- The gated step size of a sample at position x. -/
def dt (w : Wts) (x : Row) : EReal :=
  tenth * Ideal.logistic
    ((∑ h : Fin 512, Ideal.tanh ((∑ k : Fin 2048, x k * w.gw1 (ix2 k h)) + w.gb1 h) * w.gw2 (ix2 h (0 : Fin 1))) + w.gb2)

/-- The curvature term Γ(x, v) at coordinate j. -/
def gamma (w : Wts) (x v : Row) (j : Fin 2048) : EReal :=
  ∑ q : Fin 64, ((Ideal.tanh (∑ k : Fin 2048, x k * w.Wx (ix2 k q)) * (∑ k : Fin 2048, v k * w.U (ix2 k q)))
      * (∑ k : Fin 2048, v k * w.V (ix2 k q))) * w.Wo (ix2 q j)

/-- The acceleration f − Γ(x, v). -/
def acc (w : Wts) (f x v : Row) : Row := fun j => f j - gamma w x v j

/-- The predictor's position x + dt·v. -/
def xEuler (w : Wts) (x v : Row) : Row := fun j => x j + dt w x * v j
/-- The predictor's velocity v + dt·a(x, v). -/
def vEuler (w : Wts) (f x v : Row) : Row := fun j => v j + dt w x * acc w f x v j

/-- The corrected position x + (½·dt)·(v + v_e). -/
def xNext (w : Wts) (f x v : Row) : Row := fun j => x j + (half * dt w x) * (v j + vEuler w f x v j)
/-- The corrected velocity v + (½·dt)·(a(x, v) + a(x_e, v_e)). -/
def vNext (w : Wts) (f x v : Row) : Row :=
  fun j => v j + (half * dt w x) * (acc w f x v j + acc w f (xEuler w x v) (vEuler w f x v) j)

/-- The weights as the arrays both programs are given: the first bias a vector of 512, the second a vector of one. -/
def mkW (U V Wx : Mat 2048 64) (Wo : Mat 64 2048) (gw1 : Mat 2048 512) (gb1 : (⟨1, ![512]⟩ : Shape).Idx → EReal)
    (gw2 : Mat 512 1) (gb2 : (⟨1, ![1]⟩ : Shape).Idx → EReal) : Wts :=
  ⟨U, V, Wx, Wo, gw1, fun h => gb1 (ix1 h), gw2, gb2 (ix1 (0 : Fin 1))⟩

/-- The whole batch advanced: the new positions, every row by `xNext`. -/
def stepX (w : Wts) (F X V : Mat 8192 2048) : Mat 8192 2048 :=
  fun i => xNext w (row F (i 0)) (row X (i 0)) (row V (i 0)) (i 1)
/-- The whole batch advanced: the new velocities, every row by `vNext`. -/
def stepV (w : Wts) (F X V : Mat 8192 2048) : Mat 8192 2048 :=
  fun i => vNext w (row F (i 0)) (row X (i 0)) (row V (i 0)) (i 1)

/-! ## Single operations read at an entry -/

/-- A product of an [M, K] by a [K, N] matrix into a zero accumulator, at the entry (r, c): the sum over the K
    shared coordinates of row r of the first against column c of the second. The operands' float formats do not
    matter on the extended reals. -/
theorem matmul_entry (M K N : ℕ) {φ₁ φ₂ : FTy} (X : FVec Ideal ⟨2, ![M, K]⟩ φ₁) (W : FVec Ideal ⟨2, ![K, N]⟩ φ₂)
    (r : Fin M) (c : Fin N) :
    FloatOps.matmul (DotDims.plain M K N) none X W (constant ⟨2, ![M, N]⟩ .f32 0x00000000#32) (ix2 r c)
      = ∑ k : Fin K, X (ix2 r k) * W (ix2 k c) := by
  rw [Ideal.matmul_constant_zero_apply, ← Equiv.sum_comp (Cert.Lib.Dense.ce M K N).symm]
  exact Finset.sum_congr rfl fun k _ => by rw [Cert.Lib.Dense.plain_lhsIdx, Cert.Lib.Dense.plain_rhsIdx]; rfl

/-- A [1, N] row repeated down M rows reads, at (r, c), the row's entry c. -/
theorem broadcastTo_row_apply {α : Type} {M N : ℕ} (v : (⟨2, ![1, N]⟩ : Shape).Idx → α)
    (h : (⟨2, ![1, N]⟩ : Shape).Broadcasts ⟨2, ![M, N]⟩) (r : Fin M) (c : Fin N) :
    broadcastTo ⟨2, ![M, N]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if N = 1 then 0 else c.val
    split
    · have := c.isLt; omega
    · rfl

/-- The f32 word of 1.0 denotes 1. -/
theorem ofBits_one : Ideal.ofBits .f32 0x3F800000#32 = 1 := by
  simp [Ideal.ofBits, Ideal.ieee, -EReal.coe_mul]; norm_num

/-- The logistic function as the host spells it: one over one plus the exponential of the negation, the ones as
    f32 words. -/
theorem logistic_expanded (z : EReal) :
    Ideal.div (Ideal.ofBits .f32 0x3F800000#32) (Ideal.ofBits .f32 0x3F800000#32 + Ideal.exp (-z)) = Ideal.logistic z := by
  rw [ofBits_one]; rfl

end Cert.Heun

end
-- ==== Proof.RefSide.lean ====
/-
  The reference program read at an entry.

  The reference computes the Heun step on the whole batch at once: every product is a host dot product over the
  full [8192, ·] array, the step size is a column [8192, 1] repeated across the 2048 coordinates, and the logistic
  function is spelt out as 1 / (1 + exp(−z)). Read at the entry (i, j), each operation looks only at row i of its
  operands (a dot product: row i against a column of the weight; a repeated column: its entry of row i), so the
  two results at (i, j) are the row-wise step of Spec.lean applied to row i of x, v and force.
-/
import proofs.«160074_j60816736912088_1_alg».proof.Proof.Spec
import proofs.«160074_j60816736912088_1_alg».proof.Proof.Gen.ReferenceIdeal.Read

noncomputable section

open scoped BigOperators

namespace Cert.Heun.Ref

open Idealize.ShloMosaic Idealize.ShloMosaic.ValueIdx
open Cert.ReferenceIdeal Cert.ReferenceIdeal.Gen Cert.ReferenceIdeal.Read
open Cert.Heun

/-! ## Where each operation reads its operands

An output index (i, c) of a dot product reads (i, k) of the left operand and (k, c) of the right; a repeated row
reads (0, c); a repeated column reads (i, 0). -/

theorem l0 (i : Fin 8192) (c : Fin 512) (k : Fin 2048) : lidx_main_v0 (ix2 i c) k = ix2 i k := by
  funext a; match a with | ⟨0, _⟩ => rfl | ⟨1, _⟩ => rfl
theorem r0 (i : Fin 8192) (c : Fin 512) (k : Fin 2048) : ridx_main_v0 (ix2 i c) k = ix2 k c := by
  funext a; match a with | ⟨0, _⟩ => rfl | ⟨1, _⟩ => rfl
theorem i1 (z : Fin 1) (c : Fin 512) : idx_main_v1 (ix2 z c) = ix1 c := by
  funext a; match a with | ⟨0, _⟩ => rfl
theorem i2 (i : Fin 8192) (c : Fin 512) : idx_main_v2 (ix2 i c) = ix2 (0 : Fin 1) c := by
  funext a; match a with | ⟨0, _⟩ => rfl | ⟨1, _⟩ => rfl
theorem l5 (i : Fin 8192) (c : Fin 1) (k : Fin 512) : lidx_main_v5 (ix2 i c) k = ix2 i k := by
  funext a; match a with | ⟨0, _⟩ => rfl | ⟨1, _⟩ => rfl
theorem r5 (i : Fin 8192) (c : Fin 1) (k : Fin 512) : ridx_main_v5 (ix2 i c) k = ix2 k c := by
  funext a; match a with | ⟨0, _⟩ => rfl | ⟨1, _⟩ => rfl
theorem i6 (z z' : Fin 1) : idx_main_v6 (ix2 z z') = ix1 (0 : Fin 1) := by
  funext a; match a with | ⟨0, _⟩ => rfl
theorem i7 (i : Fin 8192) (c : Fin 1) : idx_main_v7 (ix2 i c) = ix2 (0 : Fin 1) (0 : Fin 1) := by
  funext a; match a with | ⟨0, _⟩ => rfl | ⟨1, _⟩ => rfl
theorem l17 (i : Fin 8192) (c : Fin 64) (k : Fin 2048) : lidx_main_v17 (ix2 i c) k = ix2 i k := by
  funext a; match a with | ⟨0, _⟩ => rfl | ⟨1, _⟩ => rfl
theorem r17 (i : Fin 8192) (c : Fin 64) (k : Fin 2048) : ridx_main_v17 (ix2 i c) k = ix2 k c := by
  funext a; match a with | ⟨0, _⟩ => rfl | ⟨1, _⟩ => rfl
theorem l19 (i : Fin 8192) (c : Fin 64) (k : Fin 2048) : lidx_main_v19 (ix2 i c) k = ix2 i k := by
  funext a; match a with | ⟨0, _⟩ => rfl | ⟨1, _⟩ => rfl
theorem r19 (i : Fin 8192) (c : Fin 64) (k : Fin 2048) : ridx_main_v19 (ix2 i c) k = ix2 k c := by
  funext a; match a with | ⟨0, _⟩ => rfl | ⟨1, _⟩ => rfl
theorem l20 (i : Fin 8192) (c : Fin 64) (k : Fin 2048) : lidx_main_v20 (ix2 i c) k = ix2 i k := by
  funext a; match a with | ⟨0, _⟩ => rfl | ⟨1, _⟩ => rfl
theorem r20 (i : Fin 8192) (c : Fin 64) (k : Fin 2048) : ridx_main_v20 (ix2 i c) k = ix2 k c := by
  funext a; match a with | ⟨0, _⟩ => rfl | ⟨1, _⟩ => rfl
theorem l23 (i : Fin 8192) (c : Fin 2048) (k : Fin 64) : lidx_main_v23 (ix2 i c) k = ix2 i k := by
  funext a; match a with | ⟨0, _⟩ => rfl | ⟨1, _⟩ => rfl
theorem r23 (i : Fin 8192) (c : Fin 2048) (k : Fin 64) : ridx_main_v23 (ix2 i c) k = ix2 k c := by
  funext a; match a with | ⟨0, _⟩ => rfl | ⟨1, _⟩ => rfl
theorem i25 (i : Fin 8192) (c : Fin 2048) : idx_main_v25 (ix2 i c) = ix2 i (0 : Fin 1) := by
  funext a; match a with | ⟨0, _⟩ => rfl | ⟨1, _⟩ => rfl
theorem i28 (i : Fin 8192) (c : Fin 2048) : idx_main_v28 (ix2 i c) = ix2 i (0 : Fin 1) := by
  funext a; match a with | ⟨0, _⟩ => rfl | ⟨1, _⟩ => rfl
theorem l31 (i : Fin 8192) (c : Fin 64) (k : Fin 2048) : lidx_main_v31 (ix2 i c) k = ix2 i k := by
  funext a; match a with | ⟨0, _⟩ => rfl | ⟨1, _⟩ => rfl
theorem r31 (i : Fin 8192) (c : Fin 64) (k : Fin 2048) : ridx_main_v31 (ix2 i c) k = ix2 k c := by
  funext a; match a with | ⟨0, _⟩ => rfl | ⟨1, _⟩ => rfl
theorem l33 (i : Fin 8192) (c : Fin 64) (k : Fin 2048) : lidx_main_v33 (ix2 i c) k = ix2 i k := by
  funext a; match a with | ⟨0, _⟩ => rfl | ⟨1, _⟩ => rfl
theorem r33 (i : Fin 8192) (c : Fin 64) (k : Fin 2048) : ridx_main_v33 (ix2 i c) k = ix2 k c := by
  funext a; match a with | ⟨0, _⟩ => rfl | ⟨1, _⟩ => rfl
theorem l34 (i : Fin 8192) (c : Fin 64) (k : Fin 2048) : lidx_main_v34 (ix2 i c) k = ix2 i k := by
  funext a; match a with | ⟨0, _⟩ => rfl | ⟨1, _⟩ => rfl
theorem r34 (i : Fin 8192) (c : Fin 64) (k : Fin 2048) : ridx_main_v34 (ix2 i c) k = ix2 k c := by
  funext a; match a with | ⟨0, _⟩ => rfl | ⟨1, _⟩ => rfl
theorem l37 (i : Fin 8192) (c : Fin 2048) (k : Fin 64) : lidx_main_v37 (ix2 i c) k = ix2 i k := by
  funext a; match a with | ⟨0, _⟩ => rfl | ⟨1, _⟩ => rfl
theorem r37 (i : Fin 8192) (c : Fin 2048) (k : Fin 64) : ridx_main_v37 (ix2 i c) k = ix2 k c := by
  funext a; match a with | ⟨0, _⟩ => rfl | ⟨1, _⟩ => rfl
theorem i42 (i : Fin 8192) (c : Fin 2048) : idx_main_v42 (ix2 i c) = ix2 i (0 : Fin 1) := by
  funext a; match a with | ⟨0, _⟩ => rfl | ⟨1, _⟩ => rfl
theorem i48 (i : Fin 8192) (c : Fin 2048) : idx_main_v48 (ix2 i c) = ix2 i (0 : Fin 1) := by
  funext a; match a with | ⟨0, _⟩ => rfl | ⟨1, _⟩ => rfl

/-! ## The stages, at an entry of row i -/

variable (x0 x1 x2 : (⟨S8192x2048, .f32⟩ : BufTy).Contents (Elt Ideal))
  (x3 x4 x5 : (⟨S2048x64, .f32⟩ : BufTy).Contents (Elt Ideal))
  (x6 : (⟨S64x2048, .f32⟩ : BufTy).Contents (Elt Ideal))
  (x7 : (⟨S2048x512, .f32⟩ : BufTy).Contents (Elt Ideal))
  (x8 : (⟨S512, .f32⟩ : BufTy).Contents (Elt Ideal))
  (x9 : (⟨S512x1, .f32⟩ : BufTy).Contents (Elt Ideal))
  (x10 : (⟨S1, .f32⟩ : BufTy).Contents (Elt Ideal))

/-- The step-size column at row i is the gated step size of row i of x. -/
theorem ref_dt (i : Fin 8192) :
    val_main_v16 (F := Ideal) x0 x7 x8 x9 x10 (ix2 i (0 : Fin 1)) = dt (mkW x3 x4 x5 x6 x7 x8 x9 x10) (row x0 i) := by
  simp only [val_main_v16_apply, val_main_v15_apply, val_main_cst_1_apply, val_main_v14_apply, val_main_v13_apply,
    val_main_cst_0_apply, val_main_v12_apply, val_main_v11_apply, val_main_cst_apply, val_main_v10_apply, val_main_v9_apply,
    val_main_v8_apply, val_main_v7_apply, val_main_v6_apply, val_main_v5_apply, val_main_v4_apply, val_main_v3_apply,
    val_main_v2_apply, val_main_v1_apply, val_main_v0_apply, l0, r0, l5, r5, i1, i2, i6, i7]
  rw [dt, ← logistic_expanded]
  rfl

/-- The first curvature term at (i, j): Γ of row i of x and v. -/
theorem ref_gamma1 (i : Fin 8192) (j : Fin 2048) :
    val_main_v23 (F := Ideal) x0 x1 x3 x4 x5 x6 (ix2 i j)
      = gamma (mkW x3 x4 x5 x6 x7 x8 x9 x10) (row x0 i) (row x1 i) j := by
  simp only [val_main_v23_apply, val_main_v22_apply, val_main_v21_apply, val_main_v18_apply, val_main_v17_apply,
    val_main_v19_apply, val_main_v20_apply, l23, r23, l17, r17, l19, r19, l20, r20]
  rfl

/-- The first acceleration at (i, j). -/
theorem ref_acc1 (i : Fin 8192) (j : Fin 2048) :
    val_main_v24 (F := Ideal) x0 x1 x2 x3 x4 x5 x6 (ix2 i j)
      = acc (mkW x3 x4 x5 x6 x7 x8 x9 x10) (row x2 i) (row x0 i) (row x1 i) j := by
  rw [val_main_v24_apply, ref_gamma1 x0 x1 x3 x4 x5 x6 x7 x8 x9 x10 i j]
  rfl

/-- The predictor's position at (i, k). -/
theorem ref_xe (i : Fin 8192) (k : Fin 2048) :
    val_main_v27 (F := Ideal) x0 x1 x7 x8 x9 x10 (ix2 i k)
      = xEuler (mkW x3 x4 x5 x6 x7 x8 x9 x10) (row x0 i) (row x1 i) k := by
  rw [val_main_v27_apply, val_main_v26_apply, val_main_v25_apply, i25, ref_dt x0 x3 x4 x5 x6 x7 x8 x9 x10 i]
  rfl

/-- The predictor's velocity at (i, k). -/
theorem ref_ve (i : Fin 8192) (k : Fin 2048) :
    val_main_v30 (F := Ideal) x0 x1 x2 x3 x4 x5 x6 x7 x8 x9 x10 (ix2 i k)
      = vEuler (mkW x3 x4 x5 x6 x7 x8 x9 x10) (row x2 i) (row x0 i) (row x1 i) k := by
  rw [val_main_v30_apply, val_main_v29_apply, val_main_v28_apply, i28, ref_dt x0 x3 x4 x5 x6 x7 x8 x9 x10 i,
    ref_acc1 x0 x1 x2 x3 x4 x5 x6 x7 x8 x9 x10 i k]
  rfl

/-- The second curvature term at (i, j): Γ of the predictor's row i. -/
theorem ref_gamma2 (i : Fin 8192) (j : Fin 2048) :
    val_main_v37 (F := Ideal) x0 x1 x2 x3 x4 x5 x6 x7 x8 x9 x10 (ix2 i j)
      = gamma (mkW x3 x4 x5 x6 x7 x8 x9 x10) (xEuler (mkW x3 x4 x5 x6 x7 x8 x9 x10) (row x0 i) (row x1 i))
          (vEuler (mkW x3 x4 x5 x6 x7 x8 x9 x10) (row x2 i) (row x0 i) (row x1 i)) j := by
  simp only [val_main_v37_apply, val_main_v36_apply, val_main_v35_apply, val_main_v32_apply, val_main_v31_apply,
    val_main_v33_apply, val_main_v34_apply, l37, r37, l31, r31, l33, r33, l34, r34,
    ref_xe x0 x1 x3 x4 x5 x6 x7 x8 x9 x10, ref_ve x0 x1 x2 x3 x4 x5 x6 x7 x8 x9 x10]
  rfl

/-- The second acceleration at (i, j). -/
theorem ref_acc2 (i : Fin 8192) (j : Fin 2048) :
    val_main_v38 (F := Ideal) x0 x1 x2 x3 x4 x5 x6 x7 x8 x9 x10 (ix2 i j)
      = acc (mkW x3 x4 x5 x6 x7 x8 x9 x10) (row x2 i) (xEuler (mkW x3 x4 x5 x6 x7 x8 x9 x10) (row x0 i) (row x1 i))
          (vEuler (mkW x3 x4 x5 x6 x7 x8 x9 x10) (row x2 i) (row x0 i) (row x1 i)) j := by
  rw [val_main_v38_apply, ref_gamma2 x0 x1 x2 x3 x4 x5 x6 x7 x8 x9 x10 i j]
  rfl

/-- The first result at (i, j) is the corrected position of row i. -/
theorem ref_x (i : Fin 8192) (j : Fin 2048) :
    val_main_v44 (F := Ideal) x0 x1 x2 x3 x4 x5 x6 x7 x8 x9 x10 (ix2 i j)
      = xNext (mkW x3 x4 x5 x6 x7 x8 x9 x10) (row x2 i) (row x0 i) (row x1 i) j := by
  rw [val_main_v44_apply, val_main_v43_apply, val_main_v42_apply, i42, val_main_v40_apply, val_main_v39_apply,
    val_main_cst_2_apply, val_main_v41_apply, ref_dt x0 x3 x4 x5 x6 x7 x8 x9 x10 i,
    ref_ve x0 x1 x2 x3 x4 x5 x6 x7 x8 x9 x10 i j]
  rfl

/-- The second result at (i, j) is the corrected velocity of row i. -/
theorem ref_v (i : Fin 8192) (j : Fin 2048) :
    val_main_v50 (F := Ideal) x0 x1 x2 x3 x4 x5 x6 x7 x8 x9 x10 (ix2 i j)
      = vNext (mkW x3 x4 x5 x6 x7 x8 x9 x10) (row x2 i) (row x0 i) (row x1 i) j := by
  rw [val_main_v50_apply, val_main_v49_apply, val_main_v48_apply, i48, val_main_v46_apply, val_main_v45_apply,
    val_main_cst_3_apply, val_main_v47_apply, ref_dt x0 x3 x4 x5 x6 x7 x8 x9 x10 i,
    ref_acc1 x0 x1 x2 x3 x4 x5 x6 x7 x8 x9 x10 i j, ref_acc2 x0 x1 x2 x3 x4 x5 x6 x7 x8 x9 x10 i j]
  rfl

/-! ## The two results as whole arrays -/

/-- The reference's first result is the batch of corrected positions. -/
theorem ref_stepX :
    val_main_v44 (F := Ideal) x0 x1 x2 x3 x4 x5 x6 x7 x8 x9 x10 = stepX (mkW x3 x4 x5 x6 x7 x8 x9 x10) x2 x0 x1 := by
  funext i
  obtain ⟨a, b, rfl⟩ : ∃ (a : Fin 8192) (b : Fin 2048), i = ix2 a b := ⟨i 0, i 1, eq_ix2 i⟩
  exact ref_x x0 x1 x2 x3 x4 x5 x6 x7 x8 x9 x10 a b

/-- The reference's second result is the batch of corrected velocities. -/
theorem ref_stepV :
    val_main_v50 (F := Ideal) x0 x1 x2 x3 x4 x5 x6 x7 x8 x9 x10 = stepV (mkW x3 x4 x5 x6 x7 x8 x9 x10) x2 x0 x1 := by
  funext i
  obtain ⟨a, b, rfl⟩ : ∃ (a : Fin 8192) (b : Fin 2048), i = ix2 a b := ⟨i 0, i 1, eq_ix2 i⟩
  exact ref_v x0 x1 x2 x3 x4 x5 x6 x7 x8 x9 x10 a b

end Cert.Heun.Ref

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.KernelSide.lean ====
/-
  The kernel's body read at an entry.

  At a grid point the body holds a block of 256 rows of x, v and force, and the weights whole. Every product is a
  block product into a zero accumulator (the operands narrowed to bf16, which changes nothing on the extended
  reals), the step size is a [256, 1] column repeated across the 2048 coordinates, and the biases arrive as a
  [1, 512] row and a [1, 1] cell. Read at the entry (r, j) of the block, each operation looks only at row r of the
  blocks, so the two stored values at (r, j) are the row-wise step of Spec.lean applied to row r of the three
  blocks: the same function the reference applies to a row of the whole arrays.
-/
import proofs.«160074_j60816736912088_1_alg».proof.Proof.Spec
import proofs.«160074_j60816736912088_1_alg».proof.Proof.LibKeepdims
import proofs.«160074_j60816736912088_1_alg».proof.Proof.Gen.KernelIdeal.Skeleton

noncomputable section

open scoped BigOperators

namespace Cert.Heun.Ker

open Idealize.ShloMosaic Idealize.ShloMosaic.ValueIdx
open Cert.KernelIdeal Cert.KernelIdeal.Gen
open Cert.Heun Cert.LibKeepdims

/-! ## The four products' dimension numbers are the plain row-by-column ones -/

theorem d_gate1 : dot_S256x2048_S2048x512_S256x512_1_0_0_1_n_n = DotDims.plain 256 2048 512 := rfl
theorem d_gate2 : dot_S256x512_S512x1_S256x1_1_0_0_1_n_n = DotDims.plain 256 512 1 := rfl
theorem d_rank : dot_S256x2048_S2048x64_S256x64_1_0_0_1_n_n = DotDims.plain 256 2048 64 := rfl
theorem d_out : dot_S256x64_S64x2048_S256x2048_1_0_0_1_n_n = DotDims.plain 256 64 2048 := rfl

/-! ## Two lane-by-lane functions at an index -/

theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-! ## The payloads -/

variable (v0 v1 v2 : Vec Ideal S256x2048 .f32) (v3 v4 v5 : Vec Ideal S2048x64 .f32) (v6 : Vec Ideal S64x2048 .f32)
  (v7 : Vec Ideal S2048x512 .f32) (v8 : Vec Ideal S1x512 .f32) (v10 : Vec Ideal S512x1 .f32) (v11 : Vec Ideal S1x1 .f32)

/-- The weights as the body holds them: U, V, Wx, Wo and gw1, gw2 whole, the first bias as a [1, 512] row and the
    second as a [1, 1] cell. -/
def kW (U V Wx : Vec Ideal S2048x64 .f32) (Wo : Vec Ideal S64x2048 .f32) (gw1 : Vec Ideal S2048x512 .f32)
    (b1 : Vec Ideal S1x512 .f32) (gw2 : Vec Ideal S512x1 .f32) (b2 : Vec Ideal S1x1 .f32) : Wts :=
  ⟨U, V, Wx, Wo, gw1, fun h => b1 (ix2 (0 : Fin 1) h), gw2, b2 (ix2 (0 : Fin 1) (0 : Fin 1))⟩

/-- The step-size column of the block at row r is the gated step size of row r of the x block. -/
theorem k_dt (r : Fin 256) :
    k0_pay1 (F := Ideal) v0 v7 v8 v10 v11 (ix2 r (0 : Fin 1)) = dt (kW v3 v4 v5 v6 v7 v8 v10 v11) (row v0 r) := by
  unfold k0_pay1
  simp only [mulf_apply, addf_apply, tanh_apply, logistic_apply, truncf_apply, broadcast_apply, matmul, d_gate1, d_gate2,
    matmul_entry, shapeCast_self, broadcastTo_row_apply]
  rfl

/-- tanh of a block of positions against Wx, at (r, q). -/
theorem k_coeff (x : Vec Ideal S256x2048 .f32) (r : Fin 256) (q : Fin 64) :
    k0_pay2 (F := Ideal) x v5 (ix2 r q) = Ideal.tanh (∑ k : Fin 2048, x (ix2 r k) * v5 (ix2 k q)) := by
  unfold k0_pay2
  simp only [tanh_apply, truncf_apply, matmul, d_rank, matmul_entry]

/-- The first acceleration of the block at (r, j). -/
theorem k_acc1 (r : Fin 256) (j : Fin 2048) :
    k0_pay5 (F := Ideal) v1 v2 v4 v6 (k0_pay2 v0 v5) (k0_pay3 v1) (k0_pay4 v3) (ix2 r j)
      = acc (kW v3 v4 v5 v6 v7 v8 v10 v11) (row v2 r) (row v0 r) (row v1 r) j := by
  unfold k0_pay5 k0_pay3 k0_pay4
  simp only [subf_apply, mulf_apply, truncf_apply, matmul, d_rank, d_out, matmul_entry, k_coeff]
  rfl

/-- The predictor's velocity of the block at (r, j). -/
theorem k_ve (r : Fin 256) (j : Fin 2048) :
    k0_pay6 (F := Ideal) v1 v2 v4 v6 (k0_pay1 v0 v7 v8 v10 v11) (k0_pay2 v0 v5) (k0_pay3 v1) (k0_pay4 v3) (ix2 r j)
      = vEuler (kW v3 v4 v5 v6 v7 v8 v10 v11) (row v2 r) (row v0 r) (row v1 r) j := by
  unfold k0_pay6
  simp only [addf_apply, mulf_apply, broadcastTo_a1_ab_apply, k_dt v0 v3 v4 v5 v6 v7 v8 v10 v11,
    k_acc1 v0 v1 v2 v3 v4 v5 v6 v7 v8 v10 v11]
  rfl

/-- The first stored value at (r, j): the corrected position of row r of the block. -/
theorem k_x (r : Fin 256) (j : Fin 2048) :
    k0_pay7 (F := Ideal) v0 v1 v2 v4 v6 (k0_pay1 v0 v7 v8 v10 v11) (k0_pay2 v0 v5) (k0_pay3 v1) (k0_pay4 v3) (ix2 r j)
      = xNext (kW v3 v4 v5 v6 v7 v8 v10 v11) (row v2 r) (row v0 r) (row v1 r) j := by
  unfold k0_pay7
  simp only [addf_apply, mulf_apply, broadcast_apply, broadcastTo_a1_ab_apply, k_dt v0 v3 v4 v5 v6 v7 v8 v10 v11,
    k_ve v0 v1 v2 v3 v4 v5 v6 v7 v8 v10 v11]
  rfl

/-- The second stored value at (r, j): the corrected velocity of row r of the block. -/
theorem k_v (r : Fin 256) (j : Fin 2048) :
    k0_pay8 (F := Ideal) v0 v1 v2 v3 v4 v5 v6 (k0_pay1 v0 v7 v8 v10 v11) (k0_pay2 v0 v5) (k0_pay3 v1) (k0_pay4 v3) (ix2 r j)
      = vNext (kW v3 v4 v5 v6 v7 v8 v10 v11) (row v2 r) (row v0 r) (row v1 r) j := by
  unfold k0_pay8
  simp only [addf_apply, subf_apply, mulf_apply, tanh_apply, truncf_apply, broadcast_apply, matmul, d_rank, d_out,
    matmul_entry, broadcastTo_a1_ab_apply, k_dt v0 v3 v4 v5 v6 v7 v8 v10 v11, k_ve v0 v1 v2 v3 v4 v5 v6 v7 v8 v10 v11,
    k_acc1 v0 v1 v2 v3 v4 v5 v6 v7 v8 v10 v11]
  rfl

end Cert.Heun.Ker

end
-- ==== Proof.Blocks.lean ====
/-
  From blocks to arrays.

  The grid has 32 points; point t stages rows 256·t … 256·t + 255 of x, v and force, the weights whole, and writes
  back rows 256·t … 256·t + 255 of the two results. What a point writes back is, entry by entry, the row-wise step
  of its rows (KernelSide.lean), that is, the block of the whole batch's step (Spec.lean's stepX, stepV) at those
  rows; the 32 blocks cover all 8192 rows, so after the run each result array is the whole batch's step.
-/
import proofs.«160074_j60816736912088_1_alg».proof.Proof.KernelSide
import proofs.«160074_j60816736912088_1_alg».proof.Proof.ValueP
import Idealize.ShloMosaic.Lib.Pipeline.Value
import Idealize.ShloMosaic.Lib.StableHlo.Run

noncomputable section

open scoped BigOperators

namespace Cert.Heun.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Heun Cert.Heun.Ker

variable (m : (ℓ : Loc nD τ sig) → Buf (Elt Ideal) ℓ) (ρ : Dev nD → PrngReg)

theorem hz : (![0, 0] : Fin 2 → Nat) = fun _ => 0 := funext fun a => by fin_cases a <;> rfl

/-- The windows that move with the grid point (x, v, force and the two results) sit at block row t, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The weights' windows stay at block (0, 0). -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Row r of the block at grid point t is row 256·t + r of the array. -/
def rowAt (t : Fin cfg0.N) (r : Fin 256) : Fin 8192 :=
  ⟨t.val * 256 + r.val, by have h : t.val < 32 := t.isLt; have := r.isLt; omega⟩

/-! ## What a block holds

Each window's block at a grid point, read at an entry, is an entry of the array the window stages: for x, v and
force the entry of row 256·t + r; for the weights, whose one block is the whole array, the same entry. -/

/-- Row r of the x block is row 256·t + r of x. -/
theorem blk_x (c : Dev nD) (t : Fin cfg0.N) (r : Fin 256) (k : Fin 2048) :
    iblk m c 0 t (ix2 r k) = m ((c : Thread nD τ).loc main_arg0) (ix2 (rowAt t r) k) := by
  show V m c main_arg0 (((cfg0.win 0).blk t).view.emb (ix2 r k)) = _
  rw [V_main_arg0]
  refine congrArg _ (funext fun a => Fin.ext ?_)
  obtain ⟨e0, e1, -⟩ := idx_rows t
  match a with
  | ⟨0, _⟩ => show win0_0.index t (0 : Fin 2) * 256 + 1 * r.val = t.val * 256 + r.val; omega
  | ⟨1, _⟩ => show win0_0.index t (1 : Fin 2) * 2048 + 1 * k.val = k.val; omega

/-- Row r of the v block is row 256·t + r of v. -/
theorem blk_v (c : Dev nD) (t : Fin cfg0.N) (r : Fin 256) (k : Fin 2048) :
    iblk m c 1 t (ix2 r k) = m ((c : Thread nD τ).loc main_arg1) (ix2 (rowAt t r) k) := by
  show V m c main_arg1 (((cfg0.win 1).blk t).view.emb (ix2 r k)) = _
  rw [V_main_arg1]
  refine congrArg _ (funext fun a => Fin.ext ?_)
  obtain ⟨-, -, e0, e1, -⟩ := idx_rows t
  match a with
  | ⟨0, _⟩ => show win0_1.index t (0 : Fin 2) * 256 + 1 * r.val = t.val * 256 + r.val; omega
  | ⟨1, _⟩ => show win0_1.index t (1 : Fin 2) * 2048 + 1 * k.val = k.val; omega

/-- Row r of the force block is row 256·t + r of force. -/
theorem blk_f (c : Dev nD) (t : Fin cfg0.N) (r : Fin 256) (k : Fin 2048) :
    iblk m c 2 t (ix2 r k) = m ((c : Thread nD τ).loc main_arg2) (ix2 (rowAt t r) k) := by
  show V m c main_arg2 (((cfg0.win 2).blk t).view.emb (ix2 r k)) = _
  rw [V_main_arg2]
  refine congrArg _ (funext fun a => Fin.ext ?_)
  obtain ⟨-, -, -, -, e0, e1, -⟩ := idx_rows t
  match a with
  | ⟨0, _⟩ => show win0_2.index t (0 : Fin 2) * 256 + 1 * r.val = t.val * 256 + r.val; omega
  | ⟨1, _⟩ => show win0_2.index t (1 : Fin 2) * 2048 + 1 * k.val = k.val; omega

/-- The U window's one block is U. -/
theorem blk_U (c : Dev nD) (t : Fin cfg0.N) (y : S2048x64.Idx) :
    iblk m c 3 t y = m ((c : Thread nD τ).loc main_arg3) y := by
  show V m c main_arg3 (((cfg0.win 3).blk t).view.emb y) = _
  rw [V_main_arg3]
  refine congrArg _ (funext fun a => Fin.ext ?_)
  have e := idx_whole t
  match a with
  | ⟨0, _⟩ => show win0_3.index t (0 : Fin 2) * 2048 + 1 * (y 0).val = (y 0).val; omega
  | ⟨1, _⟩ => show win0_3.index t (1 : Fin 2) * 64 + 1 * (y 1).val = (y 1).val; omega

/-- The V window's one block is V. -/
theorem blk_V (c : Dev nD) (t : Fin cfg0.N) (y : S2048x64.Idx) :
    iblk m c 4 t y = m ((c : Thread nD τ).loc main_arg4) y := by
  show V m c main_arg4 (((cfg0.win 4).blk t).view.emb y) = _
  rw [V_main_arg4]
  refine congrArg _ (funext fun a => Fin.ext ?_)
  have e := idx_whole t
  match a with
  | ⟨0, _⟩ => show win0_4.index t (0 : Fin 2) * 2048 + 1 * (y 0).val = (y 0).val; omega
  | ⟨1, _⟩ => show win0_4.index t (1 : Fin 2) * 64 + 1 * (y 1).val = (y 1).val; omega

/-- The Wx window's one block is Wx. -/
theorem blk_Wx (c : Dev nD) (t : Fin cfg0.N) (y : S2048x64.Idx) :
    iblk m c 5 t y = m ((c : Thread nD τ).loc main_arg5) y := by
  show V m c main_arg5 (((cfg0.win 5).blk t).view.emb y) = _
  rw [V_main_arg5]
  refine congrArg _ (funext fun a => Fin.ext ?_)
  have e := idx_whole t
  match a with
  | ⟨0, _⟩ => show win0_5.index t (0 : Fin 2) * 2048 + 1 * (y 0).val = (y 0).val; omega
  | ⟨1, _⟩ => show win0_5.index t (1 : Fin 2) * 64 + 1 * (y 1).val = (y 1).val; omega

/-- The Wo window's one block is Wo. -/
theorem blk_Wo (c : Dev nD) (t : Fin cfg0.N) (y : S64x2048.Idx) :
    iblk m c 6 t y = m ((c : Thread nD τ).loc main_arg6) y := by
  show V m c main_arg6 (((cfg0.win 6).blk t).view.emb y) = _
  rw [V_main_arg6]
  refine congrArg _ (funext fun a => Fin.ext ?_)
  have e := idx_whole t
  match a with
  | ⟨0, _⟩ => show win0_6.index t (0 : Fin 2) * 64 + 1 * (y 0).val = (y 0).val; omega
  | ⟨1, _⟩ => show win0_6.index t (1 : Fin 2) * 2048 + 1 * (y 1).val = (y 1).val; omega

/-- The gw1 window's one block is gw1. -/
theorem blk_gw1 (c : Dev nD) (t : Fin cfg0.N) (y : S2048x512.Idx) :
    iblk m c 7 t y = m ((c : Thread nD τ).loc main_arg7) y := by
  show V m c main_arg7 (((cfg0.win 7).blk t).view.emb y) = _
  rw [V_main_arg7]
  refine congrArg _ (funext fun a => Fin.ext ?_)
  have e := idx_whole t
  match a with
  | ⟨0, _⟩ => show win0_7.index t (0 : Fin 2) * 2048 + 1 * (y 0).val = (y 0).val; omega
  | ⟨1, _⟩ => show win0_7.index t (1 : Fin 2) * 512 + 1 * (y 1).val = (y 1).val; omega

/-- The gw2 window's one block is gw2. -/
theorem blk_gw2 (c : Dev nD) (t : Fin cfg0.N) (y : S512x1.Idx) :
    iblk m c 9 t y = m ((c : Thread nD τ).loc main_arg9) y := by
  show V m c main_arg9 (((cfg0.win 9).blk t).view.emb y) = _
  rw [V_main_arg9]
  refine congrArg _ (funext fun a => Fin.ext ?_)
  have e := idx_whole t
  match a with
  | ⟨0, _⟩ => show win0_9.index t (0 : Fin 2) * 512 + 1 * (y 0).val = (y 0).val; omega
  | ⟨1, _⟩ => show win0_9.index t (1 : Fin 2) * 1 + 1 * (y 1).val = (y 1).val; omega

/-! ### The two biases, reshaped on the host before the call

The first bias reaches the kernel as a [1, 512] row and the second as a [1, 1] cell: a reshape keeps the entries in
row-major order, so the row's entry (0, h) is the vector's entry h. -/

/-- The first bias as the region finds it: the [512] vector reshaped to a row. -/
theorem V_b1 (c : Dev nD) :
    (V m c main_v0 : S1x512.Idx → EReal) = shapeCast S1x512 (m ((c : Thread nD τ).loc main_arg8)) shapeCasts_S512_S1x512 := by
  dsimp only [Gen.V, Gen.hostOps0]; after_results; rfl

/-- The second bias as the region finds it: the [1] vector reshaped to a cell. -/
theorem V_b2 (c : Dev nD) :
    (V m c main_v1 : S1x1.Idx → EReal) = shapeCast S1x1 (m ((c : Thread nD τ).loc main_arg10)) shapeCasts_S1_S1x1 := by
  dsimp only [Gen.V, Gen.hostOps0]; after_results; rfl

/-- Entry (0, h) of the first bias's block is entry h of the bias vector. -/
theorem blk_b1 (c : Dev nD) (t : Fin cfg0.N) (h : Fin 512) :
    iblk m c 8 t (ix2 (0 : Fin 1) h) = m ((c : Thread nD τ).loc main_arg8) (ix1 h) := by
  show V m c main_v0 (((cfg0.win 8).blk t).view.emb (ix2 (0 : Fin 1) h)) = _
  rw [V_b1, Cert.Lib.Dense.shapeCast_row]
  show m ((c : Thread nD τ).loc main_arg8) (ix1 ((((cfg0.win 8).blk t).view.emb (ix2 (0 : Fin 1) h)) 1)) = _
  refine congrArg _ (congrArg ix1 (Fin.ext ?_))
  have e := idx_whole t
  show win0_8.index t (1 : Fin 2) * 512 + 1 * h.val = h.val
  omega

/-- The one entry of the second bias's block is the one entry of the bias vector. -/
theorem blk_b2 (c : Dev nD) (t : Fin cfg0.N) :
    iblk m c 10 t (ix2 (0 : Fin 1) (0 : Fin 1)) = m ((c : Thread nD τ).loc main_arg10) (ix1 (0 : Fin 1)) := by
  show V m c main_v1 (((cfg0.win 10).blk t).view.emb (ix2 (0 : Fin 1) (0 : Fin 1))) = _
  rw [V_b2, Cert.Lib.Dense.shapeCast_row]
  show m ((c : Thread nD τ).loc main_arg10) (ix1 ((((cfg0.win 10).blk t).view.emb (ix2 (0 : Fin 1) (0 : Fin 1))) 1)) = _
  refine congrArg _ (congrArg ix1 (Fin.ext ?_))
  have e := idx_whole t
  show win0_10.index t (1 : Fin 2) * 1 + 1 * 0 = 0
  omega

/-! ## The weights a point works with are the program's -/

/-- The weights of the whole program, from its argument arrays. -/
def Wa (c : Dev nD) : Wts :=
  mkW (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- At every grid point the body's weights are those. -/
theorem weights_eq (c : Dev nD) (t : Fin cfg0.N) :
    kW (iblk m c 3 t) (iblk m c 4 t) (iblk m c 5 t) (iblk m c 6 t) (iblk m c 7 t) (iblk m c 8 t) (iblk m c 9 t) (iblk m c 10 t)
      = Wa m c := by
  unfold kW Wa mkW
  congr 1
  · exact funext (blk_U m c t)
  · exact funext (blk_V m c t)
  · exact funext (blk_Wx m c t)
  · exact funext (blk_Wo m c t)
  · exact funext (blk_gw1 m c t)
  · exact funext (blk_b1 m c t)
  · exact funext (blk_gw2 m c t)
  · exact blk_b2 m c t

/-! ## What a point writes back -/

/-- Row r of the x block, as a sample, is row 256·t + r of x. -/
theorem row_x (c : Dev nD) (t : Fin cfg0.N) (r : Fin 256) :
    row (iblk m c 0 t) r = row (m ((c : Thread nD τ).loc main_arg0)) (rowAt t r) := funext fun k => blk_x m c t r k
/-- Row r of the v block is row 256·t + r of v. -/
theorem row_v (c : Dev nD) (t : Fin cfg0.N) (r : Fin 256) :
    row (iblk m c 1 t) r = row (m ((c : Thread nD τ).loc main_arg1)) (rowAt t r) := funext fun k => blk_v m c t r k
/-- Row r of the force block is row 256·t + r of force. -/
theorem row_f (c : Dev nD) (t : Fin cfg0.N) (r : Fin 256) :
    row (iblk m c 2 t) r = row (m ((c : Thread nD τ).loc main_arg2)) (rowAt t r) := funext fun k => blk_f m c t r k

/-- A block-shaped vector cut to the point's block of the first result, at the block index y, is the vector at (y 0, y 1). -/
theorem cut_x (t : Fin cfg0.N) (P : Vec Ideal S256x2048 .f32) (y : ((cfg0.win 11).xblock (grid0.coords t)).Idx) :
    (cfg0.win 11).cut (grid0.coords t) P y
      = P (ix2 (⟨(y 0).val, (y 0).isLt⟩ : Fin 256) (⟨(y 1).val, (y 1).isLt⟩ : Fin 2048)) := by
  show P ((cfg0.win 11).xinj (grid0.coords t) y) = _
  refine congrArg P (funext fun a => ?_)
  match a with
  | ⟨0, _⟩ => rfl
  | ⟨1, _⟩ => rfl

/-- An [8192, 2048] array read through the point's block of the first result, at y, is the array at (256·t + y 0, y 1). -/
theorem read_x (t : Fin cfg0.N) (G : Mat 8192 2048) (y : ((cfg0.win 11).xblock (grid0.coords t)).Idx) :
    ((cfg0.win 11).blk t).view.read (Elt Ideal) G y
      = G (ix2 (rowAt t (⟨(y 0).val, (y 0).isLt⟩ : Fin 256)) (⟨(y 1).val, (y 1).isLt⟩ : Fin 2048)) := by
  show G (((cfg0.win 11).blk t).view.emb y) = _
  refine congrArg G (funext fun a => Fin.ext ?_)
  have e := idx_rows t
  match a with
  | ⟨0, _⟩ => show win0_11.index t (0 : Fin 2) * 256 + 1 * (y 0).val = t.val * 256 + (y 0).val; omega
  | ⟨1, _⟩ => show win0_11.index t (1 : Fin 2) * 2048 + 1 * (y 1).val = (y 1).val; omega

/-- A block-shaped vector cut to the point's block of the second result, at the block index y, is the vector at (y 0, y 1). -/
theorem cut_v (t : Fin cfg0.N) (P : Vec Ideal S256x2048 .f32) (y : ((cfg0.win 12).xblock (grid0.coords t)).Idx) :
    (cfg0.win 12).cut (grid0.coords t) P y
      = P (ix2 (⟨(y 0).val, (y 0).isLt⟩ : Fin 256) (⟨(y 1).val, (y 1).isLt⟩ : Fin 2048)) := by
  show P ((cfg0.win 12).xinj (grid0.coords t) y) = _
  refine congrArg P (funext fun a => ?_)
  match a with
  | ⟨0, _⟩ => rfl
  | ⟨1, _⟩ => rfl

/-- An [8192, 2048] array read through the point's block of the second result, at y, is the array at (256·t + y 0, y 1). -/
theorem read_v (t : Fin cfg0.N) (G : Mat 8192 2048) (y : ((cfg0.win 12).xblock (grid0.coords t)).Idx) :
    ((cfg0.win 12).blk t).view.read (Elt Ideal) G y
      = G (ix2 (rowAt t (⟨(y 0).val, (y 0).isLt⟩ : Fin 256)) (⟨(y 1).val, (y 1).isLt⟩ : Fin 2048)) := by
  show G (((cfg0.win 12).blk t).view.emb y) = _
  refine congrArg G (funext fun a => Fin.ext ?_)
  have e := idx_rows t
  match a with
  | ⟨0, _⟩ => show win0_12.index t (0 : Fin 2) * 256 + 1 * (y 0).val = t.val * 256 + (y 0).val; omega
  | ⟨1, _⟩ => show win0_12.index t (1 : Fin 2) * 2048 + 1 * (y 1).val = (y 1).val; omega

/-- Point t writes back, to the first result, block t of the batch's corrected positions. -/
theorem flushed_x (c : Dev nD) (t : Fin cfg0.N) :
    (dats m 0 c).flushed 11 t = ((cfg0.win 11).blk t).view.read (Elt Ideal)
      (stepX (Wa m c) (m ((c : Thread nD τ).loc main_arg2)) (m ((c : Thread nD τ).loc main_arg0)) (m ((c : Thread nD τ).loc main_arg1))) := by
  rw [Cert.KernelIdeal.ValueP.flushed11]
  unfold out0_11
  rw [View.canon_unit_zero hz]
  simp only [View.ld_unit_zero (S := S256x2048) hz, View.ld_unit_zero (S := S2048x64) hz, View.ld_unit_zero (S := S64x2048) hz,
    View.ld_unit_zero (S := S2048x512) hz, View.ld_unit_zero (S := S1x512) hz, View.ld_unit_zero (S := S512x1) hz,
    View.ld_unit_zero (S := S1x1) hz]
  funext y
  rw [cut_x, read_x]
  refine (k_x (iblk m c 0 t) (iblk m c 1 t) (iblk m c 2 t) (iblk m c 3 t) (iblk m c 4 t) (iblk m c 5 t) (iblk m c 6 t)
    (iblk m c 7 t) (iblk m c 8 t) (iblk m c 9 t) (iblk m c 10 t) _ _).trans ?_
  rw [weights_eq m c t, row_x m c t, row_v m c t, row_f m c t]
  rfl

/-- Point t writes back, to the second result, block t of the batch's corrected velocities. -/
theorem flushed_v (c : Dev nD) (t : Fin cfg0.N) :
    (dats m 0 c).flushed 12 t = ((cfg0.win 12).blk t).view.read (Elt Ideal)
      (stepV (Wa m c) (m ((c : Thread nD τ).loc main_arg2)) (m ((c : Thread nD τ).loc main_arg0)) (m ((c : Thread nD τ).loc main_arg1))) := by
  rw [Cert.KernelIdeal.ValueP.flushed12]
  unfold out0_12
  rw [View.canon_unit_zero hz]
  simp only [View.ld_unit_zero (S := S256x2048) hz, View.ld_unit_zero (S := S2048x64) hz, View.ld_unit_zero (S := S64x2048) hz,
    View.ld_unit_zero (S := S2048x512) hz, View.ld_unit_zero (S := S1x512) hz, View.ld_unit_zero (S := S512x1) hz,
    View.ld_unit_zero (S := S1x1) hz]
  funext y
  rw [cut_v, read_v]
  refine (k_v (iblk m c 0 t) (iblk m c 1 t) (iblk m c 2 t) (iblk m c 3 t) (iblk m c 4 t) (iblk m c 5 t) (iblk m c 6 t)
    (iblk m c 7 t) (iblk m c 8 t) (iblk m c 9 t) (iblk m c 10 t) _ _).trans ?_
  rw [weights_eq m c t, row_x m c t, row_v m c t, row_f m c t]
  rfl

/-! ## The 32 blocks cover the 8192 rows -/

/-- An index is in point t's block of the first result iff each coordinate is in the block's range. -/
theorem mem_blk_x (t : Fin cfg0.N) (i : S8192x2048.Idx) :
    i ∈ ((cfg0.win 11).blk t).view.set ↔ ∀ a : Fin 2, win0_11.index t a * S256x2048.size a ≤ (i a).val
      ∧ (i a).val < win0_11.index t a * S256x2048.size a + S256x2048.size a := by
  show i ∈ ((View.whole main_v2_0).slice (win0_11.rect t)).set ↔ _
  rw [View.set_slice_whole, Rect.mem_set_unit]
  exact Iff.rfl

/-- The same for the second result. -/
theorem mem_blk_v (t : Fin cfg0.N) (i : S8192x2048.Idx) :
    i ∈ ((cfg0.win 12).blk t).view.set ↔ ∀ a : Fin 2, win0_12.index t a * S256x2048.size a ≤ (i a).val
      ∧ (i a).val < win0_12.index t a * S256x2048.size a + S256x2048.size a := by
  show i ∈ ((View.whole main_v2_1).slice (win0_12.rect t)).set ↔ _
  rw [View.set_slice_whole, Rect.mem_set_unit]
  exact Iff.rfl

/-- Row i of the first result is written by the point i / 256. -/
theorem cover_x (i : S8192x2048.Idx) :
    ∃ t : Fin cfg0.N, (cfg0.win 11).flush t = true ∧ i ∈ ((cfg0.win 11).blk t).view.set := by
  have hi0 : (i 0).val < 8192 := (i 0).isLt
  have hi1 : (i 1).val < 2048 := (i 1).isLt
  obtain ⟨t, ht⟩ : ∃ t : Fin cfg0.N, t.val = (i 0).val / 256 := ⟨⟨(i 0).val / 256, by show (i 0).val / 256 < 32; omega⟩, rfl⟩
  refine ⟨t, flush0_11 t, ?_⟩
  rw [mem_blk_x]
  have e := idx_rows t
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 2048 ≤ (i 1).val ∧ (i 1).val < win0_11.index t (1 : Fin 2) * 2048 + 2048; omega

/-- Row i of the second result is written by the point i / 256. -/
theorem cover_v (i : S8192x2048.Idx) :
    ∃ t : Fin cfg0.N, (cfg0.win 12).flush t = true ∧ i ∈ ((cfg0.win 12).blk t).view.set := by
  have hi0 : (i 0).val < 8192 := (i 0).isLt
  have hi1 : (i 1).val < 2048 := (i 1).isLt
  obtain ⟨t, ht⟩ : ∃ t : Fin cfg0.N, t.val = (i 0).val / 256 := ⟨⟨(i 0).val / 256, by show (i 0).val / 256 < 32; omega⟩, rfl⟩
  refine ⟨t, flush0_12 t, ?_⟩
  rw [mem_blk_v]
  have e := idx_rows t
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 2048 ≤ (i 1).val ∧ (i 1).val < win0_12.index t (1 : Fin 2) * 2048 + 2048; omega

/-! ## The arrays after the run -/

/-- The first result ends as the batch's corrected positions. -/
theorem final_x (c : Dev nD) :
    (dats m 0 c).arrAt 11 cfg0.N
      = stepX (Wa m c) (m ((c : Thread nD τ).loc main_arg2)) (m ((c : Thread nD τ).loc main_arg0)) (m ((c : Thread nD τ).loc main_arg1)) :=
  (dats m 0 c).arrAt_eq_of_cover 11 _ (fun t _ => flushed_x m c t) cover_x

/-- The second result ends as the batch's corrected velocities. -/
theorem final_v (c : Dev nD) :
    (dats m 0 c).arrAt 12 cfg0.N
      = stepV (Wa m c) (m ((c : Thread nD τ).loc main_arg2)) (m ((c : Thread nD τ).loc main_arg0)) (m ((c : Thread nD τ).loc main_arg1)) :=
  (dats m 0 c).arrAt_eq_of_cover 12 _ (fun t _ => flushed_v m c t) cover_v

/-- The kernel's run at the extended reals: both results at the batch's step, the arguments unchanged. -/
theorem run : θ_run defs (onTc (τ := τ) (main (F := Ideal))) ⟨m, fun _ => 0, ρ⟩ fun r => ∀ c : Dev nD,
      r.2.mem ((c : Thread nD τ).loc main_v2_0)
        = stepX (Wa m c) (m ((c : Thread nD τ).loc main_arg2)) (m ((c : Thread nD τ).loc main_arg0)) (m ((c : Thread nD τ).loc main_arg1))
      ∧ r.2.mem ((c : Thread nD τ).loc main_v2_1)
        = stepV (Wa m c) (m ((c : Thread nD τ).loc main_arg2)) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_x m c), (h c).2.1.trans (final_v m c), (h c).2.2⟩)
    (Cert.KernelIdeal.ValueP.run_blocks m ρ)

end Cert.Heun.Blocks
end
-- ==== Proof.lean ====
/-
  One Heun (RK2) step of a curvature-gated geodesic flow, fused in one kernel, against the plain jnp reference.

  For every sample (row) with position x, velocity v and force f both programs compute
      dt  = 0.1 · σ( tanh(x·gw1 + gb1)·gw2 + gb2 ),
      Γ(x, v) = ( tanh(x·Wx) ⊙ (v·U) ⊙ (v·V) )·Wo,          a(x, v) = f − Γ(x, v),
      x_e = x + dt·v,   v_e = v + dt·a(x, v),
      x'  = x + (½·dt)·(v + v_e),   v'  = v + (½·dt)·(a(x, v) + a(x_e, v_e)).
  The kernel does this for 256 rows at a time, at each of 32 grid points, with its products into zero accumulators
  on operands narrowed to bf16 and the logistic function as one operation; the reference does it for all 8192 rows
  at once with host dot products and the logistic function spelt out as 1 / (1 + exp(−z)). On the extended reals
  narrowing is the identity, both kinds of product are the same sum over the shared coordinates, and the logistic
  function is by definition that quotient; and no operation mixes two rows. So, entry by entry, both programs'
  results are the same row-wise function of the inputs (Proof/Spec.lean), and the equality uses no algebraic law
  and no finiteness of the inputs: the precondition is not opened.

  Proof/RefSide.lean reads the reference at an entry, Proof/KernelSide.lean the kernel's body, Proof/Blocks.lean
  carries the body's blocks to the whole result arrays (the 32 blocks of 256 rows cover the 8192 rows). The two
  kernels' frames are the generated ones; the reference's frame is its generated run with the results dropped; no
  operation was rewritten by the idealization, so there is nothing to preserve.
-/
import proofs.«160074_j60816736912088_1_alg».proof.Defs
import proofs.«160074_j60816736912088_1_alg».proof.Proof.Gen.Kernel
import proofs.«160074_j60816736912088_1_alg».proof.Proof.Gen.Kernel.Skeleton
import proofs.«160074_j60816736912088_1_alg».proof.Proof.Gen.Kernel.Launch
import proofs.«160074_j60816736912088_1_alg».proof.Proof.Gen.Kernel.Points
import proofs.«160074_j60816736912088_1_alg».proof.Proof.Gen.Kernel.Frame
import proofs.«160074_j60816736912088_1_alg».proof.Proof.Gen.KernelIdeal
import proofs.«160074_j60816736912088_1_alg».proof.Proof.Gen.KernelIdeal.Skeleton
import proofs.«160074_j60816736912088_1_alg».proof.Proof.Gen.KernelIdeal.Launch
import proofs.«160074_j60816736912088_1_alg».proof.Proof.Gen.KernelIdeal.Points
import proofs.«160074_j60816736912088_1_alg».proof.Proof.Gen.KernelIdeal.Frame
import proofs.«160074_j60816736912088_1_alg».proof.Proof.Gen.ReferenceIdeal
import proofs.«160074_j60816736912088_1_alg».proof.Proof.Gen.Pre_finite_inputs
import proofs.«160074_j60816736912088_1_alg».proof.Proof.ValueP
import proofs.«160074_j60816736912088_1_alg».proof.Proof.Gen.ReferenceIdeal.Run
import proofs.«160074_j60816736912088_1_alg».proof.Proof.Gen.ReferenceIdeal.Read
import proofs.«160074_j60816736912088_1_alg».proof.Proof.RefSide
import proofs.«160074_j60816736912088_1_alg».proof.Proof.Blocks
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments as they were: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the eleven arguments, the kernel's two result arrays and the reference's are the
    batch's corrected positions and velocities: the kernel's by its blocks (Blocks.lean), the reference's entry by
    entry (RefSide.lean), both of the same argument arrays. -/
theorem algebraic : Cert.algebraic_KernelIdeal_ReferenceIdeal := by
  intro m ρ m' ρ' _ hagree
  refine ⟨_, _, Cert.Heun.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v44_eq, Cert.Heun.Ref.ref_stepX, a0, a1, a2, a3, a4, a5, a6, a7, a8, a9, a10]
    rfl
  · obtain ⟨a0, a1, a2, a3, a4, a5, a6, a7, a8, a9, a10⟩ := hagree c
    rw [Cert.ReferenceIdeal.Read.val_main_v50_eq, Cert.Heun.Ref.ref_stepV, a0, a1, a2, a3, a4, a5, a6, a7, a8, a9, a10]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
